-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S4x8192x2 : Shape := ⟨3, ![4, 8192, 2]⟩
abbrev S2048x16 : Shape := ⟨2, ![2048, 16]⟩
abbrev S_ : Shape := ⟨0, ![]⟩

class Facts : Prop where
  bcast_S_S4x8192x2 : S_.BroadcastsInDim S4x8192x2 (![] : Fin 0 → Fin S4x8192x2.rank)
  reducesTo_S4x8192x2_S_d0_1_2 : S4x8192x2.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  reducesTo_S_S_d : S_.ReducesTo [] S_

variable [Facts]

def fn {F : FTy → Type} [FloatOps F] (main_arg0 : IVec S4x8192 32) (main_arg1 : FVec F S4x8192x2 .f32) (main_arg2 : FVec F S2048x16 .f32) (main_arg3 : FVec F S_ .f32) : IVec S_ 1 :=
  let main_v0 : FVec F S4x8192x2 .f32 := Host.absf main_arg1
  let main_cst : FVec F S_ .f32 := constant S_ .f32 0x7F800000#32
  let main_v1 : FVec F S4x8192x2 .f32 := broadcastInDim S4x8192x2 ![] bcast_S_S4x8192x2 main_cst
  let main_v2 : IVec S4x8192x2 1 := cmpf .olt main_v0 main_v1
  let main_c : IVec S_ 1 := constantI S_ 1 1#1
  let main_v3 : IVec S_ 1 := (fun x v => Host.reduce IntOp.andi x v reducesTo_S4x8192x2_S_d0_1_2 h_S_) main_v2 main_c
  let main_v4 : FVec F S2048x16 .f32 := Host.absf main_arg2
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4x8192 : Shape := ⟨2, ![4, 8192]⟩
abbrev S4x8192x2 : Shape := ⟨3, ![4, 8192, 2]⟩
abbrev S2048x16 : Shape := ⟨2, ![2048, 16]⟩
abbrev S_ : Shape := ⟨0, ![]⟩
abbrev S32768x2 : Shape := ⟨2, ![32768, 2]⟩
abbrev S16x2048 : Shape := ⟨2, ![16, 2048]⟩
abbrev S32768x2048 : Shape := ⟨2, ![32768, 2048]⟩
abbrev S2048x2 : Shape := ⟨2, ![2048, 2]⟩
abbrev S2048x2048 : Shape := ⟨2, ![2048, 2048]⟩
abbrev S2048x1 : Shape := ⟨2, ![2048, 1]⟩
abbrev S4x8192x2048 : Shape := ⟨3, ![4, 8192, 2048]⟩

abbrev nBuf : Space → Nat
  | .hbm => 10
  | .vmem => 5
  | .smem => 0
  | _ => 0

abbrev bufTy : (tb : Table) → Fin (tcTables nBuf tb) → BufTy
  | .hbm, ⟨0, _⟩ => ⟨S4x8192, .i32⟩
  | .hbm, ⟨1, _⟩ => ⟨S4x8192x2, .f32⟩
  | .hbm, ⟨2, _⟩ => ⟨S2048x16, .f32⟩
  | .hbm, ⟨3, _⟩ => ⟨S_, .f32⟩
  | .hbm, ⟨4, _⟩ => ⟨S32768x2, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S32768x2048, .f32⟩
  | .hbm, ⟨9, _⟩ => ⟨S4x8192x2048, .f32⟩
  | .local _ .vmem, ⟨0, _⟩ => ⟨S2048x2, .f32⟩
  | .local _ .vmem, ⟨1, _⟩ => ⟨S2048x2, .f32⟩
  | .local _ .vmem, ⟨2, _⟩ => ⟨S16x2048, .f32⟩
  | .local _ .vmem, ⟨3, _⟩ => ⟨S2048x2048, .f32⟩
  | .local _ .vmem, ⟨4, _⟩ => ⟨S2048x2048, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x2_S32768x2 : S4x8192x2.ShapeCasts S32768x2
  transposes_S2048x16_S16x2048_1_0 : S2048x16.Transposes [1, 0] S16x2048
  bcast_S_S16x2048 : S_.BroadcastsInDim S16x2048 (![] : Fin 0 → Fin S16x2048.rank)
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  slices_S2048x2_o0_0_S2048x1 : S2048x2.Slices ![0, 0] S2048x1
  slices_S2048x2_o0_1_S2048x1 : S2048x2.Slices ![0, 1] S2048x1
  concatenates_S2048x1_S2048x1_S2048x1_S2048x1_S2048x1_S2048x1_S2048x1_S2048x1_S2048x1_S2048x1_S2048x1_S2048x1_S2048x1_S2048x1_S2048x1_S2048x1_S2048x16_d1 : Shape.Concatenates [S2048x1, S2048x1, S2048x1, S2048x1, S2048x1, S2048x1, S2048x1, S2048x1, S2048x1, S2048x1, S2048x1, S2048x1, S2048x1, S2048x1, S2048x1, S2048x1] S2048x16 1
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x2048_S2048x2048_0_0 : ∀ a, (![0, 0] : Fin 2 → Nat) a + S2048x2048.size a ≤ S2048x2048.size a
  h_S2048x2048 : 0 < S2048x2048.numel
  shapeCasts_S32768x2048_S4x8192x2048 : S32768x2048.ShapeCasts S4x8192x2048
  dot_S2048x16_S16x2048_S2048x2048_1_0_0_1_n_n_wf : DotDims.WF S2048x16 S16x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S32768x2.size a
  hwx0_0 : ∀ i : grid0.Coords, EltTy.bits .f32 = 32 ∨ (Rect.block (s := S32768x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S32768x2048.size a
  hwx0_2 : ∀ i : grid0.Coords, EltTy.bits .f32 = 32 ∨ (Rect.block (s := S32768x2048) S2048x2048.size (cc0_transform_2 i) (hinb0_2 i)).WholeWords (EltTy.packing .f32)

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf

abbrev win0_0 : Pipeline.Window sig grid0 :=
  Pipeline.Window.ofSpec (Memref.whole main_v0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192 : Shape := ⟨2, ![4, 8192]⟩
abbrev S4x8192x2 : Shape := ⟨3, ![4, 8192, 2]⟩
abbrev S2048x16 : Shape := ⟨2, ![2048, 16]⟩
abbrev S_ : Shape := ⟨0, ![]⟩
abbrev S4x8192x1 : Shape := ⟨3, ![4, 8192, 1]⟩
abbrev S4x8192x16 : Shape := ⟨3, ![4, 8192, 16]⟩
abbrev S4x8192x2048 : Shape := ⟨3, ![4, 8192, 2048]⟩

abbrev nBuf : Space → Nat
  | .hbm => 104
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S4x8192x2, .f32⟩
  | .hbm, ⟨2, _⟩ => ⟨S2048x16, .f32⟩
  | .hbm, ⟨3, _⟩ => ⟨S_, .f32⟩
  | .hbm, ⟨4, _⟩ => ⟨S4x8192x1, .f32⟩
  | .hbm, ⟨5, _⟩ => ⟨S4x8192, .f32⟩
  | .hbm, ⟨6, _⟩ => ⟨S4x8192x1, .f32⟩
  | .hbm, ⟨7, _⟩ => ⟨S4x8192, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S4x8192, .f32⟩
  | .hbm, ⟨14, _⟩ => ⟨S4x8192, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S4x8192, .f32⟩
  | .hbm, ⟨20, _⟩ => ⟨S4x8192, .f32⟩
  | .hbm, ⟨21, _⟩ => ⟨S4x8192, .f32⟩
  | .hbm, ⟨22, _⟩ => ⟨S4x8192, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192, .f32⟩
  | .hbm, ⟨29, _⟩ => ⟨S4x8192, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192, .f32⟩
  | .hbm, ⟨47, _⟩ => ⟨S4x8192, .f32⟩
  | .hbm, ⟨48, _⟩ => ⟨S4x8192, .f32⟩
  | .hbm, ⟨49, _⟩ => ⟨S4x8192, .f32⟩
  | .hbm, ⟨50, _⟩ => ⟨S4x8192, .f32⟩
  | .hbm, ⟨51, _⟩ => ⟨S4x8192, .f32⟩
  | .hbm, ⟨52, _⟩ => ⟨S_, .f32⟩
  | .hbm, ⟨53, _⟩ => ⟨S4x8192, .f32⟩
  | .hbm, ⟨54, _⟩ => ⟨S4x8192, .f32⟩
  | .hbm, ⟨55, _⟩ => ⟨S4x8192, .f32⟩
  | .hbm, ⟨56, _⟩ => ⟨S4x8192, .f32⟩
  | .hbm, ⟨57, _⟩ => ⟨S4x8192, .f32⟩
  | .hbm, ⟨58, _⟩ => ⟨S4x8192, .f32⟩
  | .hbm, ⟨59, _⟩ => ⟨S4x8192, .f32⟩
  | .hbm, ⟨60, _⟩ => ⟨S4x8192, .f32⟩
  | .hbm, ⟨61, _⟩ => ⟨S_, .f32⟩
  | .hbm, ⟨62, _⟩ => ⟨S4x8192, .f32⟩
  | .hbm, ⟨63, _⟩ => ⟨S4x8192, .f32⟩
  | .hbm, ⟨64, _⟩ => ⟨S4x8192, .f32⟩
  | .hbm, ⟨65, _⟩ => ⟨S4x8192, .f32⟩
  | .hbm, ⟨66, _⟩ => ⟨S4x8192, .f32⟩
  | .hbm, ⟨67, _⟩ => ⟨S4x8192, .f32⟩
  | .hbm, ⟨68, _⟩ => ⟨S4x8192, .f32⟩
  | .hbm, ⟨69, _⟩ => ⟨S4x8192, .f32⟩
  | .hbm, ⟨70, _⟩ => ⟨S_, .f32⟩
  | .hbm, ⟨71, _⟩ => ⟨S4x8192, .f32⟩
  | .hbm, ⟨72, _⟩ => ⟨S4x8192, .f32⟩
  | .hbm, ⟨73, _⟩ => ⟨S4x8192, .f32⟩
  | .hbm, ⟨74, _⟩ => ⟨S4x8192, .f32⟩
  | .hbm, ⟨75, _⟩ => ⟨S4x8192, .f32⟩
  | .hbm, ⟨76, _⟩ => ⟨S4x8192, .f32⟩
  | .hbm, ⟨77, _⟩ => ⟨S4x8192, .f32⟩
  | .hbm, ⟨78, _⟩ => ⟨S4x8192, .f32⟩
  | .hbm, ⟨79, _⟩ => ⟨S_, .f32⟩
  | .hbm, ⟨80, _⟩ => ⟨S4x8192, .f32⟩
  | .hbm, ⟨81, _⟩ => ⟨S4x8192, .f32⟩
  | .hbm, ⟨82, _⟩ => ⟨S4x8192, .f32⟩
  | .hbm, ⟨83, _⟩ => ⟨S4x8192, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1, .f32⟩
  | .hbm, ⟨88, _⟩ => ⟨S4x8192x1, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x1, .f32⟩
  | .hbm, ⟨93, _⟩ => ⟨S4x8192x1, .f32⟩
  | .hbm, ⟨94, _⟩ => ⟨S4x8192x1, .f32⟩
  | .hbm, ⟨95, _⟩ => ⟨S4x8192x1, .f32⟩
  | .hbm, ⟨96, _⟩ => ⟨S4x8192x1, .f32⟩
  | .hbm, ⟨97, _⟩ => ⟨S4x8192x1, .f32⟩
  | .hbm, ⟨98, _⟩ => ⟨S4x8192x1, .f32⟩
  | .hbm, ⟨99, _⟩ => ⟨S4x8192x1, .f32⟩
  | .hbm, ⟨100, _⟩ => ⟨S4x8192x16, .f32⟩
  | .hbm, ⟨101, _⟩ => ⟨S4x8192x2048, .f32⟩
  | .hbm, ⟨102, _⟩ => ⟨S4x8192x2048, .f32⟩
  | .hbm, ⟨103, _⟩ => ⟨S4x8192x2048, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩

abbrev nD : Nat := 1
abbrev τ : Topo := Topo.v7x

variable {F : FTy → Type} [FloatOps F]

class Facts₀ : Prop where
  slices_S4x8192x2_S4x8192x1_0_0_0 : S4x8192x2.Slices ![0, 0, 0] S4x8192x1
  shapeCasts_S4x8192x1_S4x8192 : S4x8192x1.ShapeCasts S4x8192
  slices_S4x8192x2_S4x8192x1_0_0_1 : S4x8192x2.Slices ![0, 0, 1] S4x8192x1
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  concatenates_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x16_d2 : Shape.Concatenates [S4x8192x1, S4x8192x1, S4x8192x1, S4x8192x1, S4x8192x1, S4x8192x1, S4x8192x1, S4x8192x1, S4x8192x1, S4x8192x1, S4x8192x1, S4x8192x1, S4x8192x1, S4x8192x1, S4x8192x1, S4x8192x1] S4x8192x16 2
  bcast_S_S4x8192x2048 : S_.BroadcastsInDim S4x8192x2048 (![] : Fin 0 → Fin S4x8192x2048.rank)
  dot_S4x8192x16_S2048x16_S4x8192x2048_2_1_01_0_n_n_wf : DotDims.WF S4x8192x16 S2048x16 S4x8192x2048 [2] [1] [0, 1] [0] [] []

variable [Facts₀]

def dot_S4x8192x16_S2048x16_S4x8192x2048_2_1_01_0_n_n : DotDims S4x8192x16 S2048x16 S4x8192x2048 where
  lhsContracting := [2]
  rhsContracting := [1]
  lhsNonContracting := [0, 1]
  rhsNonContracting := [0]
  lhsBatch := []
  rhsBatch := []
  wf := dot_S4x8192x16_S2048x16_S4x8192x2048_2_1_01_0_n_n_wf

class Facts : Prop extends Facts₀ where

variable [Facts]
-- ==== Proof.Julia.lean ====
/-
  The Julia recurrence z ↦ z² + c on the extended reals, started at z = 0, and the one algebraic law the
  certificate needs: a common finite factor leaves a finite sum of finite terms.

  A token's constant is c = cr + i·ci. Step n + 1 of the orbit has real part (re·re − im·im) + cr and imaginary part
  ((2·re)·im) + ci of step n, the operations taken in exactly this order and grouping (the order matters on the
  extended reals only where an infinity appears; it is kept so that both programs' texts are this function on the
  nose). The sixteen features of a token are the real and imaginary parts of steps 1 … 8, interleaved.

  Nothing here depends on a program.
-/
import Idealize.ShloMosaic.Lib.ValueIdx
import Idealize.ShloMosaic.PureOps.Ideal.Laws

noncomputable section

open scoped BigOperators

namespace Cert.Julia

open Idealize.ShloMosaic Idealize.ShloMosaic.ValueIdx

/-- The recurrence's two literals, as the extended reals their f32 words denote: 0.0 … -/
abbrev zero : EReal := Ideal.ofBits .f32 0x00000000#32
/-- … and 2.0. -/
abbrev two : EReal := Ideal.ofBits .f32 0x40000000#32

/-- The word of 2.0 denotes the real number two. -/
theorem two_eq : two = ((2 : ℝ) : EReal) := by
  simp [two, Ideal.ofBits, Ideal.ieee, -EReal.coe_mul]; norm_num

/-- The word of 0.0 denotes the real number zero. -/
theorem zero_eq : zero = ((0 : ℝ) : EReal) := by
  rw [zero, Ideal.ofBits_zero_f32]; rfl

/-- The orbit of 0 under z ↦ z² + c as (real part, imaginary part). -/
def orbit (cr ci : EReal) : ℕ → EReal × EReal
  | 0 => (zero, zero)
  | n + 1 => ((orbit cr ci n).1 * (orbit cr ci n).1 - (orbit cr ci n).2 * (orbit cr ci n).2 + cr,
      two * (orbit cr ci n).1 * (orbit cr ci n).2 + ci)

/-- Feature k of a token: step k / 2 + 1 of its orbit, the real part at even k, the imaginary part at odd k. -/
def feat (cr ci : EReal) (k : Fin 16) : EReal :=
  if k.val % 2 = 0 then (orbit cr ci (k.val / 2 + 1)).1 else (orbit cr ci (k.val / 2 + 1)).2

/-- An even feature is a real part … -/
theorem feat_even (cr ci : EReal) (n : ℕ) (h : 2 * n < 16) : feat cr ci ⟨2 * n, h⟩ = (orbit cr ci (n + 1)).1 := by
  unfold feat
  rw [if_pos (show (2 * n) % 2 = 0 by omega), show 2 * n / 2 = n by omega]

/-- … an odd one an imaginary part. -/
theorem feat_odd (cr ci : EReal) (n : ℕ) (h : 2 * n + 1 < 16) : feat cr ci ⟨2 * n + 1, h⟩ = (orbit cr ci (n + 1)).2 := by
  unfold feat
  rw [if_neg (show ¬(2 * n + 1) % 2 = 0 by omega), show (2 * n + 1) / 2 = n by omega]

/-! ## One step, on whole vectors read at an index -/

section Steps
variable {s : Shape}

/-- The real part's update on vectors, read at an index, is the orbit's next real part. -/
theorem re_step (zr zi cr ci : FVec Ideal s .f32) (i : s.Idx) (n : ℕ)
    (hr : zr i = (orbit (cr i) (ci i) n).1) (hi : zi i = (orbit (cr i) (ci i) n).2) :
    addf (subf (mulf zr zr) (mulf zi zi)) cr i = (orbit (cr i) (ci i) (n + 1)).1 := by
  show zr i * zr i - zi i * zi i + cr i = _
  rw [hr, hi]; rfl

/-- The imaginary part's update on vectors, read at an index, is the orbit's next imaginary part. -/
theorem im_step (tw zr zi cr ci : FVec Ideal s .f32) (i : s.Idx) (n : ℕ) (ht : tw i = two)
    (hr : zr i = (orbit (cr i) (ci i) n).1) (hi : zi i = (orbit (cr i) (ci i) n).2) :
    addf (mulf (mulf tw zr) zi) ci i = (orbit (cr i) (ci i) (n + 1)).2 := by
  show tw i * zr i * zi i + ci i = _
  rw [ht, hr, hi]; rfl

end Steps

/-! ## The orbit of a finite constant is finite -/

/-- From real cr and ci every step of the orbit is a pair of reals: the recurrence is a polynomial. -/
theorem orbit_real (x y : ℝ) : ∀ n : ℕ, ∃ p q : ℝ, orbit (x : EReal) (y : EReal) n = ((p : EReal), (q : EReal))
  | 0 => ⟨0, 0, by rw [orbit, zero_eq]⟩
  | n + 1 => by
    obtain ⟨p, q, h⟩ := orbit_real x y n
    refine ⟨p * p - q * q + x, 2 * p * q + y, ?_⟩
    rw [orbit, h, two_eq]
    simp only [EReal.coe_add, EReal.coe_sub, EReal.coe_mul]

/-- So every feature of a finite constant is a real. -/
theorem feat_real (x y : ℝ) (k : Fin 16) : ∃ r : ℝ, feat (x : EReal) (y : EReal) k = (r : EReal) := by
  obtain ⟨p, q, h⟩ := orbit_real x y (k.val / 2 + 1)
  unfold feat
  split
  · exact ⟨p, by rw [h]⟩
  · exact ⟨q, by rw [h]⟩

/-! ## The common factor of a sum -/

/-- A finite sum of reals, taken in the extended reals, is the real sum. -/
theorem coe_sum {K : ℕ} (f : Fin K → ℝ) : (∑ k, ((f k : ℝ) : EReal)) = ((∑ k, f k : ℝ) : EReal) := by
  induction (Finset.univ : Finset (Fin K)) using Finset.induction_on with
  | empty => simp
  | insert a S ha ih => rw [Finset.sum_insert ha, Finset.sum_insert ha, ih, EReal.coe_add]

/-- With every term and the factor finite, multiplying each weight by s is multiplying the whole sum by s:
    Σ a k · (w k · s) = (Σ a k · w k) · s. (On the extended reals the law needs the finiteness: a sum that is +∞ − ∞
    junk does not distribute.) -/
theorem sum_mul_scale {K : ℕ} (a w : Fin K → EReal) (s : EReal) (ha : ∀ k, ∃ r : ℝ, a k = (r : EReal))
    (hw : ∀ k, ∃ r : ℝ, w k = (r : EReal)) (hs : ∃ r : ℝ, s = (r : EReal)) :
    ∑ k, a k * (w k * s) = (∑ k, a k * w k) * s := by
  choose a' ha' using ha
  choose w' hw' using hw
  obtain ⟨s', rfl⟩ := hs
  simp only [ha', hw', ← EReal.coe_mul]
  rw [coe_sum, coe_sum, ← EReal.coe_mul, Finset.sum_mul]
  exact congrArg _ (Finset.sum_congr rfl fun k _ => by ring)

/-! ## The specification -/

/-- THE EMBEDDING both programs compute, as one function of the three float arguments: entry (b, l, d) is the
    projection of token (b, l)'s sixteen features on row d of the weight, times the scalar:
    (Σ k, feat (C[b, l, 0]) (C[b, l, 1]) k · W[d, k]) · S. -/
def embed (C : (⟨3, ![4, 8192, 2]⟩ : Shape).Idx → EReal) (W : (⟨2, ![2048, 16]⟩ : Shape).Idx → EReal)
    (S : (⟨0, ![]⟩ : Shape).Idx → EReal) : (⟨3, ![4, 8192, 2048]⟩ : Shape).Idx → EReal :=
  fun i => (∑ k : Fin 16, feat (C (ix3 (i 0) (i 1) (0 : Fin 2))) (C (ix3 (i 0) (i 1) (1 : Fin 2))) k * W (ix2 (i 2) k))
    * S ix0

/-- The same entry with the scalar folded into the weight first — what a program computes that scales the weight
    before the product — is the embedding, when the arguments are finite. -/
theorem embed_of_scaled_weight (C : (⟨3, ![4, 8192, 2]⟩ : Shape).Idx → EReal) (W : (⟨2, ![2048, 16]⟩ : Shape).Idx → EReal)
    (S : (⟨0, ![]⟩ : Shape).Idx → EReal) (hC : ∀ i, ∃ r : ℝ, C i = (r : EReal)) (hW : ∀ i, ∃ r : ℝ, W i = (r : EReal))
    (hS : ∀ i, ∃ r : ℝ, S i = (r : EReal)) (b : Fin 4) (l : Fin 8192) (d : Fin 2048) :
    ∑ k : Fin 16, feat (C (ix3 b l (0 : Fin 2))) (C (ix3 b l (1 : Fin 2))) k * (W (ix2 d k) * S ix0)
      = embed C W S (ix3 b l d) := by
  obtain ⟨x, hx⟩ := hC (ix3 b l (0 : Fin 2))
  obtain ⟨y, hy⟩ := hC (ix3 b l (1 : Fin 2))
  rw [hx, hy]
  refine (sum_mul_scale _ _ _ (fun k => feat_real x y k) (fun k => hW _) (hS _)).trans ?_
  show _ = (∑ k : Fin 16, feat (C (ix3 b l (0 : Fin 2))) (C (ix3 b l (1 : Fin 2))) k * W (ix2 d k)) * S ix0
  rw [hx, hy]

end Cert.Julia

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KernelPayload.lean ====
/-
  The kernel body's value at one entry of its output block.

  The body loads a [2048, 2] block of token constants and the whole [16, 2048] weight, runs eight steps of the Julia
  recurrence on the block's two columns, lays the sixteen resulting columns side by side as a [2048, 16] feature
  matrix and multiplies it into the weight. So entry (p, q) of what it stores is the sum over the sixteen features k of
  feat (c[p, 0]) (c[p, 1]) k · w[k, q].
-/
import proofs.«177505_j30365418782764_1_alg».proof.Proof.Gen.KernelIdeal.Skeleton
import proofs.«177505_j30365418782764_1_alg».proof.Proof.Julia
import proofs.«177505_j30365418782764_1_alg».proof.Proof.LibMatmul
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.Julia

/-! ## The two columns of the block -/

/-- Column 0 of the block, read at row p: the token's real constant. -/
theorem cr_apply (v0 : Vec Ideal S2048x2 .f32) (p : Fin 2048) :
    k0_pay3 v0 (ix2 p (0 : Fin 1)) = v0 (ix2 p (0 : Fin 2)) := by
  show extractStridedSlice S2048x1 ![0, 0] (k0_pay2 v0) Facts₀.slices_S2048x2_o0_0_S2048x1 (ix2 p (0 : Fin 1)) = _
  refine (extractStridedSlice_apply _ _ _ _ (ix2 p (0 : Fin 2)) fun a => ?_).trans ?_
  · match a with
    | ⟨0, _⟩ => show p.val = 0 + p.val; omega
    | ⟨1, _⟩ => rfl
  · show shapeCast S2048x2 v0 Facts₀.shapeCasts_S2048x2_S2048x2 _ = _
    exact congrFun (shapeCast_self v0 _) _

/-- Column 1 of the block, read at row p: the token's imaginary constant. -/
theorem ci_apply (v0 : Vec Ideal S2048x2 .f32) (p : Fin 2048) :
    k0_pay4 v0 (ix2 p (0 : Fin 1)) = v0 (ix2 p (1 : Fin 2)) := by
  show extractStridedSlice S2048x1 ![0, 1] (k0_pay2 v0) Facts₀.slices_S2048x2_o0_1_S2048x1 (ix2 p (0 : Fin 1)) = _
  refine (extractStridedSlice_apply _ _ _ _ (ix2 p (1 : Fin 2)) fun a => ?_).trans ?_
  · match a with
    | ⟨0, _⟩ => show p.val = 0 + p.val; omega
    | ⟨1, _⟩ => rfl
  · show shapeCast S2048x2 v0 Facts₀.shapeCasts_S2048x2_S2048x2 _ = _
    exact congrFun (shapeCast_self v0 _) _

/-! ## The orbit, step by step: each named column is a step of the orbit of the row's constant -/

section Orbit
variable (v0 : Vec Ideal S2048x2 .f32) (i : S2048x1.Idx)

/-- The splat of 2.0 the imaginary part's update multiplies by. -/
abbrev twos : FVec Ideal S2048x1 .f32 := broadcast S2048x1 (Scalar.ofBits .f32 0x40000000#32)

theorem re1 : k0_pay7 v0 i = (orbit (k0_pay3 v0 i) (k0_pay4 v0 i) 1).1 :=
  re_step (k0_pay5 (F := Ideal)) (k0_pay6 (F := Ideal)) (k0_pay3 v0) (k0_pay4 v0) i 0 rfl rfl
theorem im1 : k0_pay8 v0 i = (orbit (k0_pay3 v0 i) (k0_pay4 v0 i) 1).2 :=
  im_step twos (k0_pay5 (F := Ideal)) (k0_pay6 (F := Ideal)) (k0_pay3 v0) (k0_pay4 v0) i 0 rfl rfl rfl
theorem re2 : k0_pay9 v0 i = (orbit (k0_pay3 v0 i) (k0_pay4 v0 i) 2).1 :=
  re_step (k0_pay7 v0) (k0_pay8 v0) (k0_pay3 v0) (k0_pay4 v0) i 1 (re1 v0 i) (im1 v0 i)
theorem im2 : k0_pay10 v0 i = (orbit (k0_pay3 v0 i) (k0_pay4 v0 i) 2).2 :=
  im_step twos (k0_pay7 v0) (k0_pay8 v0) (k0_pay3 v0) (k0_pay4 v0) i 1 rfl (re1 v0 i) (im1 v0 i)
theorem re3 : k0_pay11 v0 i = (orbit (k0_pay3 v0 i) (k0_pay4 v0 i) 3).1 :=
  re_step (k0_pay9 v0) (k0_pay10 v0) (k0_pay3 v0) (k0_pay4 v0) i 2 (re2 v0 i) (im2 v0 i)
theorem im3 : k0_pay12 v0 i = (orbit (k0_pay3 v0 i) (k0_pay4 v0 i) 3).2 :=
  im_step twos (k0_pay9 v0) (k0_pay10 v0) (k0_pay3 v0) (k0_pay4 v0) i 2 rfl (re2 v0 i) (im2 v0 i)
theorem re4 : k0_pay13 v0 i = (orbit (k0_pay3 v0 i) (k0_pay4 v0 i) 4).1 :=
  re_step (k0_pay11 v0) (k0_pay12 v0) (k0_pay3 v0) (k0_pay4 v0) i 3 (re3 v0 i) (im3 v0 i)
theorem im4 : k0_pay14 v0 i = (orbit (k0_pay3 v0 i) (k0_pay4 v0 i) 4).2 :=
  im_step twos (k0_pay11 v0) (k0_pay12 v0) (k0_pay3 v0) (k0_pay4 v0) i 3 rfl (re3 v0 i) (im3 v0 i)
theorem re5 : k0_pay15 v0 i = (orbit (k0_pay3 v0 i) (k0_pay4 v0 i) 5).1 :=
  re_step (k0_pay13 v0) (k0_pay14 v0) (k0_pay3 v0) (k0_pay4 v0) i 4 (re4 v0 i) (im4 v0 i)
theorem im5 : k0_pay16 v0 i = (orbit (k0_pay3 v0 i) (k0_pay4 v0 i) 5).2 :=
  im_step twos (k0_pay13 v0) (k0_pay14 v0) (k0_pay3 v0) (k0_pay4 v0) i 4 rfl (re4 v0 i) (im4 v0 i)
theorem re6 : k0_pay17 v0 i = (orbit (k0_pay3 v0 i) (k0_pay4 v0 i) 6).1 :=
  re_step (k0_pay15 v0) (k0_pay16 v0) (k0_pay3 v0) (k0_pay4 v0) i 5 (re5 v0 i) (im5 v0 i)

/-- The last five columns, which the body computes beside the product: steps 6 (imaginary part), 7 and 8. -/
def colIm6 : FVec Ideal S2048x1 .f32 := addf (mulf (mulf twos (k0_pay15 v0)) (k0_pay16 v0)) (k0_pay4 v0)
def colRe7 : FVec Ideal S2048x1 .f32 :=
  addf (subf (mulf (k0_pay17 v0) (k0_pay17 v0)) (mulf (colIm6 v0) (colIm6 v0))) (k0_pay3 v0)
def colIm7 : FVec Ideal S2048x1 .f32 := addf (mulf (mulf twos (k0_pay17 v0)) (colIm6 v0)) (k0_pay4 v0)
def colRe8 : FVec Ideal S2048x1 .f32 :=
  addf (subf (mulf (colRe7 v0) (colRe7 v0)) (mulf (colIm7 v0) (colIm7 v0))) (k0_pay3 v0)
def colIm8 : FVec Ideal S2048x1 .f32 := addf (mulf (mulf twos (colRe7 v0)) (colIm7 v0)) (k0_pay4 v0)

theorem im6 : colIm6 v0 i = (orbit (k0_pay3 v0 i) (k0_pay4 v0 i) 6).2 :=
  im_step twos (k0_pay15 v0) (k0_pay16 v0) (k0_pay3 v0) (k0_pay4 v0) i 5 rfl (re5 v0 i) (im5 v0 i)
theorem re7 : colRe7 v0 i = (orbit (k0_pay3 v0 i) (k0_pay4 v0 i) 7).1 :=
  re_step (k0_pay17 v0) (colIm6 v0) (k0_pay3 v0) (k0_pay4 v0) i 6 (re6 v0 i) (im6 v0 i)
theorem im7 : colIm7 v0 i = (orbit (k0_pay3 v0 i) (k0_pay4 v0 i) 7).2 :=
  im_step twos (k0_pay17 v0) (colIm6 v0) (k0_pay3 v0) (k0_pay4 v0) i 6 rfl (re6 v0 i) (im6 v0 i)
theorem re8 : colRe8 v0 i = (orbit (k0_pay3 v0 i) (k0_pay4 v0 i) 8).1 :=
  re_step (colRe7 v0) (colIm7 v0) (k0_pay3 v0) (k0_pay4 v0) i 7 (re7 v0 i) (im7 v0 i)
theorem im8 : colIm8 v0 i = (orbit (k0_pay3 v0 i) (k0_pay4 v0 i) 8).2 :=
  im_step twos (colRe7 v0) (colIm7 v0) (k0_pay3 v0) (k0_pay4 v0) i 7 rfl (re7 v0 i) (im7 v0 i)

/-- The sixteen columns of the feature matrix, in the order the body concatenates them. -/
def cols : Fin 16 → (S2048x1.Idx → EReal)
  | ⟨0, _⟩ => k0_pay7 v0
  | ⟨1, _⟩ => k0_pay8 v0
  | ⟨2, _⟩ => k0_pay9 v0
  | ⟨3, _⟩ => k0_pay10 v0
  | ⟨4, _⟩ => k0_pay11 v0
  | ⟨5, _⟩ => k0_pay12 v0
  | ⟨6, _⟩ => k0_pay13 v0
  | ⟨7, _⟩ => k0_pay14 v0
  | ⟨8, _⟩ => k0_pay15 v0
  | ⟨9, _⟩ => k0_pay16 v0
  | ⟨10, _⟩ => k0_pay17 v0
  | ⟨11, _⟩ => colIm6 v0
  | ⟨12, _⟩ => colRe7 v0
  | ⟨13, _⟩ => colIm7 v0
  | ⟨14, _⟩ => colRe8 v0
  | ⟨15, _⟩ => colIm8 v0
  | ⟨_ + 16, h⟩ => absurd h (Nat.not_lt.2 (Nat.le_add_left _ _))

/-- Column k, read at a row, is feature k of the row's constant. -/
theorem cols_apply (k : Fin 16) : cols v0 k i = feat (k0_pay3 v0 i) (k0_pay4 v0 i) k := by
  match k with
  | ⟨0, _⟩ => exact (re1 v0 i).trans (feat_even _ _ 0 (by omega)).symm
  | ⟨1, _⟩ => exact (im1 v0 i).trans (feat_odd _ _ 0 (by omega)).symm
  | ⟨2, _⟩ => exact (re2 v0 i).trans (feat_even _ _ 1 (by omega)).symm
  | ⟨3, _⟩ => exact (im2 v0 i).trans (feat_odd _ _ 1 (by omega)).symm
  | ⟨4, _⟩ => exact (re3 v0 i).trans (feat_even _ _ 2 (by omega)).symm
  | ⟨5, _⟩ => exact (im3 v0 i).trans (feat_odd _ _ 2 (by omega)).symm
  | ⟨6, _⟩ => exact (re4 v0 i).trans (feat_even _ _ 3 (by omega)).symm
  | ⟨7, _⟩ => exact (im4 v0 i).trans (feat_odd _ _ 3 (by omega)).symm
  | ⟨8, _⟩ => exact (re5 v0 i).trans (feat_even _ _ 4 (by omega)).symm
  | ⟨9, _⟩ => exact (im5 v0 i).trans (feat_odd _ _ 4 (by omega)).symm
  | ⟨10, _⟩ => exact (re6 v0 i).trans (feat_even _ _ 5 (by omega)).symm
  | ⟨11, _⟩ => exact (im6 v0 i).trans (feat_odd _ _ 5 (by omega)).symm
  | ⟨12, _⟩ => exact (re7 v0 i).trans (feat_even _ _ 6 (by omega)).symm
  | ⟨13, _⟩ => exact (im7 v0 i).trans (feat_odd _ _ 6 (by omega)).symm
  | ⟨14, _⟩ => exact (re8 v0 i).trans (feat_even _ _ 7 (by omega)).symm
  | ⟨15, _⟩ => exact (im8 v0 i).trans (feat_odd _ _ 7 (by omega)).symm
  | ⟨_ + 16, h⟩ => exact absurd h (Nat.not_lt.2 (Nat.le_add_left _ _))

/-- The columns as the list of pieces a concatenation takes … -/
abbrev colPieces : List ((s : Shape) × (s.Idx → EReal)) :=
  List.ofFn fun n : Fin 16 => (⟨S2048x1, cols v0 n⟩ : (s : Shape) × (s.Idx → EReal))

/-- … whose shapes are the sixteen [2048, 1] the body's concatenation states. -/
theorem colPieces_cat : Shape.Concatenates ((colPieces v0).map (·.1)) S2048x16 1 :=
  Facts₀.concatenates_S2048x1_S2048x1_S2048x1_S2048x1_S2048x1_S2048x1_S2048x1_S2048x1_S2048x1_S2048x1_S2048x1_S2048x1_S2048x1_S2048x1_S2048x1_S2048x1_S2048x16_d1

end Orbit

/-! ## The product -/

/-- The body's stored value, with the feature matrix spelt as the concatenation of `cols`. -/
theorem stored_eq (x0 : Vec Ideal S2048x2 .f32) (x1 : Vec Ideal S16x2048 .f32) :
    k0_pay1 (k0_pay3 x0) (k0_pay4 x0) (k0_pay7 x0) (k0_pay8 x0) (k0_pay9 x0) (k0_pay10 x0) (k0_pay11 x0) (k0_pay12 x0)
        (k0_pay13 x0) (k0_pay14 x0) (k0_pay15 x0) (k0_pay16 x0) (k0_pay17 x0) x1
      = FloatOps.matmul (φ₁ := .f32) (φ₂ := .f32) (DotDims.plain 2048 16 2048) none
          (concatenate S2048x16 1 (colPieces x0) (colPieces_cat x0))
          (shapeCast S16x2048 x1 Facts₀.shapeCasts_S16x2048_S16x2048) (constant S2048x2048 .f32 0x00000000#32) := rfl

/-- ENTRY (p, q) OF WHAT THE BODY STORES: the sum over the sixteen features of the row's constant times the weight's
    column q. -/
theorem stored_apply (x0 : Vec Ideal S2048x2 .f32) (x1 : Vec Ideal S16x2048 .f32) (p q : Fin 2048) :
    k0_pay1 (k0_pay3 x0) (k0_pay4 x0) (k0_pay7 x0) (k0_pay8 x0) (k0_pay9 x0) (k0_pay10 x0) (k0_pay11 x0) (k0_pay12 x0)
        (k0_pay13 x0) (k0_pay14 x0) (k0_pay15 x0) (k0_pay16 x0) (k0_pay17 x0) x1 (ix2 p q)
      = ∑ k : Fin 16, feat (x0 (ix2 p (0 : Fin 2))) (x0 (ix2 p (1 : Fin 2))) k * x1 (ix2 k q) := by
  rw [stored_eq]
  refine (Cert.Lib.Matmul.matmul_zero_apply none _ _ p q).trans (Finset.sum_congr rfl fun k _ => ?_)
  have hc : concatenate S2048x16 1 (colPieces x0) (colPieces_cat x0) (ix2 p k) = cols x0 k (ix2 p (0 : Fin 1)) :=
    concatenate_ofFn_unit_apply (t := S2048x16) (s₁ := S2048x1) (1 : Fin 2) (cols x0) (colPieces_cat x0) rfl rfl
      (ix2 p k) k rfl (ix2 p (0 : Fin 1)) fun b hb => by
        match b with
        | ⟨0, _⟩ => rfl
        | ⟨1, _⟩ => exact absurd rfl hb
  rw [hc, cols_apply, cr_apply, ci_apply]
  exact congrArg _ (congrFun (shapeCast_self x1 _) _)

end Cert.KernelIdeal.Body

end
-- ==== Proof.KernelValue.lean ====
/-
  The idealized kernel's result as one function of the three float arguments.

  Before the kernel the program reshapes the token constants [4, 8192, 2] to rows [32768, 2] and forms the scaled,
  transposed weight Wᵀ · scale of shape [16, 2048]. Grid point t hands the body rows 2048 t … 2048 t + 2047 of the
  constants and the whole weight, and writes back rows 2048 t … 2048 t + 2047 of the output [32768, 2048]; the
  sixteen blocks tile the output. After the kernel the output is reshaped to [4, 8192, 2048]. Entry (b, l, d) of
  the result is therefore Σ k, feat (C[b, l, 0]) (C[b, l, 1]) k · (W[d, k] · scale), which for finite arguments is the
  embedding's entry.
-/
import proofs.«177505_j30365418782764_1_alg».proof.Proof.Gen.KernelIdeal.Frame
import proofs.«177505_j30365418782764_1_alg».proof.Proof.KernelPayload
import Idealize.ShloMosaic.Lib.Pipeline.Value
import Idealize.ShloMosaic.Lib.ValueLayout
import Idealize.ShloMosaic.Lib.IdealHost
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.SL.Sem
  Cert.KernelIdeal Cert.KernelIdeal.Gen Cert.KernelIdeal.Body Cert.Julia
open Idealize.ShloMosaic.Pipeline (Dat)

variable (m : (ℓ : Loc nD τ sig) → Buf (Elt Ideal) ℓ) (ρ : Dev nD → PrngReg)

/-! ## The arguments, and the two arrays the kernel's windows stage -/

abbrev argC (c : Dev nD) : FVec Ideal S4x8192x2 .f32 := m ((c : Thread nD τ).loc main_arg1)
abbrev argW (c : Dev nD) : FVec Ideal S2048x16 .f32 := m ((c : Thread nD τ).loc main_arg2)
abbrev argS (c : Dev nD) : FVec Ideal S_ .f32 := m ((c : Thread nD τ).loc main_arg3)

/-- The token constants as rows, as the region finds them. -/
abbrev rowsArr (c : Dev nD) : Vec Ideal S32768x2 .f32 := V m c main_v0
/-- The scaled, transposed weight, as the region finds it. -/
abbrev wArr (c : Dev nD) : Vec Ideal S16x2048 .f32 := V m c main_v3

/-- The rows are the reshape of the constants. -/
theorem rowsArr_eq (c : Dev nD) :
    rowsArr m c = shapeCast S32768x2 (argC m c) Facts₀.shapeCasts_S4x8192x2_S32768x2 := by
  show StableHlo.after hostOps0 (fun b => m (c, b)) (Proc.devRef .tc main_v0) = _
  after_results
  rfl

/-- The staged weight is the transpose of the weight times the broadcast scalar. -/
theorem wArr_eq (c : Dev nD) :
    wArr m c = mulf (transpose S16x2048 [1, 0] (argW m c) Facts₀.transposes_S2048x16_S16x2048_1_0)
      (broadcastInDim S16x2048 ![] Facts₀.bcast_S_S16x2048 (argS m c)) := by
  show StableHlo.after hostOps0 (fun b => m (c, b)) (Proc.devRef .tc main_v3) = _
  after_results

/-- Row 8192 b + l of the rows is token (b, l)'s constant. -/
theorem rowsArr_apply (c : Dev nD) (b : Fin 4) (l : Fin 8192) (j : Fin 2) (h : 8192 * b.val + l.val < 32768) :
    rowsArr m c (ix2 ⟨8192 * b.val + l.val, h⟩ j) = argC m c (ix3 b l j) := by
  rw [rowsArr_eq]
  refine shapeCast_apply _ _ _ (ix3 b l j) ?_
  rw [Shape.rowMajor_val_three, Shape.rowMajor_val_two]
  show (b.val * 8192 + l.val) * 2 + j.val = (8192 * b.val + l.val) * 2 + j.val
  omega

/-- Entry (k, d) of the staged weight is W[d, k] · scale. -/
theorem wArr_apply (c : Dev nD) (k : Fin 16) (d : Fin 2048) :
    wArr m c (ix2 k d) = argW m c (ix2 d k) * argS m c ix0 := by
  rw [wArr_eq]
  show transpose S16x2048 [1, 0] (argW m c) _ (ix2 k d) * broadcastInDim S16x2048 ![] _ (argS m c) (ix2 k d) = _
  refine congrArg₂ (· * ·) (transpose_ix2_apply _ _ _ _) (broadcastInDim_scalar_apply _ _ _)

/-! ## The windows' blocks -/

/-- The printed index maps, decided over the grid: the row windows move with the point, the weight's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt16 (t : Fin cfg0.N) : t.val < 16 := lt_of_lt_of_eq t.isLt N_0

/-- The block of rows at point t, and the block of the weight, as vectors of their literal shapes. -/
abbrev rowsBlk (c : Dev nD) (t : Fin cfg0.N) : Vec Ideal S2048x2 .f32 := iblk m c 0 t
abbrev wBlk (c : Dev nD) (t : Fin cfg0.N) : Vec Ideal S16x2048 .f32 := iblk m c 1 t

/-- Row p of point t's block is row 2048 t + p of the rows. -/
theorem rowsBlk_apply (c : Dev nD) (t : Fin cfg0.N) (p : Fin 2048) (j : Fin 2) (h : 2048 * t.val + p.val < 32768) :
    rowsBlk m c t (ix2 p j) = rowsArr m c (ix2 ⟨2048 * t.val + p.val, h⟩ j) := by
  show V m c main_v0 (((cfg0.win 0).blk t).view.emb (ix2 p j)) = V m c main_v0 (ix2 ⟨2048 * t.val + p.val, h⟩ j)
  refine congrArg _ (funext fun a => Fin.ext ?_)
  obtain ⟨e0, e1, -⟩ := idx_facts t
  match a with
  | ⟨0, _⟩ => show win0_0.index t (0 : Fin 2) * 2048 + 1 * p.val = 2048 * t.val + p.val; omega
  | ⟨1, _⟩ => show win0_0.index t (1 : Fin 2) * 2 + 1 * j.val = j.val; omega

/-- Every point's block of the weight is the whole weight. -/
theorem wBlk_apply (c : Dev nD) (t : Fin cfg0.N) (k : Fin 16) (q : Fin 2048) :
    wBlk m c t (ix2 k q) = wArr m c (ix2 k q) := by
  show V m c main_v3 (((cfg0.win 1).blk t).view.emb (ix2 k q)) = V m c main_v3 (ix2 k q)
  refine congrArg _ (funext fun a => Fin.ext ?_)
  obtain ⟨-, -, e0, e1, -⟩ := idx_facts t
  match a with
  | ⟨0, _⟩ => show win0_1.index t (0 : Fin 2) * 16 + 1 * k.val = k.val; omega
  | ⟨1, _⟩ => show win0_1.index t (1 : Fin 2) * 2048 + 1 * q.val = q.val; omega

/-! ## What a point writes back -/

theorem hz2 : (![0, 0] : Fin 2 → Nat) = fun _ => 0 := funext fun a => by fin_cases a <;> rfl

/-- The body's one store fills the staging buffer with its product. -/
theorem out_eq (x0 : Vec Ideal S2048x2 .f32) (x1 : Vec Ideal S16x2048 .f32) :
    out0_2 x0 x1 = k0_pay1 (k0_pay3 x0) (k0_pay4 x0) (k0_pay7 x0) (k0_pay8 x0) (k0_pay9 x0) (k0_pay10 x0)
      (k0_pay11 x0) (k0_pay12 x0) (k0_pay13 x0) (k0_pay14 x0) (k0_pay15 x0) (k0_pay16 x0) (k0_pay17 x0) x1 := by
  unfold out0_2
  rw [View.canon_unit_zero hz2]
  simp only [View.ld_unit_zero (S := S2048x2) hz2, View.ld_unit_zero (S := S16x2048) hz2]

/-- The output [32768, 2048] the kernel leaves: row r, column d. -/
def outArr (c : Dev nD) : Vec Ideal S32768x2048 .f32 := fun i =>
  ∑ k : Fin 16, feat (rowsArr m c (ix2 (i 0) (0 : Fin 2))) (rowsArr m c (ix2 (i 0) (1 : Fin 2))) k * wArr m c (ix2 k (i 1))

/-- Where point t's block of the output sits. -/
theorem emb_out (t : Fin cfg0.N) (p q : Fin 2048) (h : 2048 * t.val + p.val < 32768) :
    ((cfg0.win 2).blk t).view.emb (ix2 p q) = (ix2 ⟨2048 * t.val + p.val, h⟩ q : S32768x2048.Idx) := by
  refine funext fun a => Fin.ext ?_
  obtain ⟨-, -, -, -, e0, e1⟩ := idx_facts t
  match a with
  | ⟨0, _⟩ => show win0_2.index t (0 : Fin 2) * 2048 + 1 * p.val = 2048 * t.val + p.val; omega
  | ⟨1, _⟩ => show win0_2.index t (1 : Fin 2) * 2048 + 1 * q.val = q.val; omega

/-- WHAT POINT t WRITES BACK is block t of the output. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2, out_eq]
  refine funext fun (y : S2048x2048.Idx) => ?_
  obtain ⟨p, q, rfl⟩ : ∃ (p q : Fin 2048), y = ix2 p q := ⟨y 0, y 1, eq_ix2 y⟩
  have ht := lt16 t
  have hp : p.val < 2048 := p.isLt
  have hb : 2048 * t.val + p.val < 32768 := by omega
  show k0_pay1 (k0_pay3 (rowsBlk m c t)) (k0_pay4 (rowsBlk m c t)) (k0_pay7 (rowsBlk m c t)) (k0_pay8 (rowsBlk m c t))
      (k0_pay9 (rowsBlk m c t)) (k0_pay10 (rowsBlk m c t)) (k0_pay11 (rowsBlk m c t)) (k0_pay12 (rowsBlk m c t))
      (k0_pay13 (rowsBlk m c t)) (k0_pay14 (rowsBlk m c t)) (k0_pay15 (rowsBlk m c t)) (k0_pay16 (rowsBlk m c t))
      (k0_pay17 (rowsBlk m c t)) (wBlk m c t) (ix2 p q) = outArr m c (((cfg0.win 2).blk t).view.emb (ix2 p q))
  rw [emb_out t p q hb, stored_apply]
  show _ = ∑ k : Fin 16, feat (rowsArr m c (ix2 ⟨2048 * t.val + p.val, hb⟩ (0 : Fin 2)))
    (rowsArr m c (ix2 ⟨2048 * t.val + p.val, hb⟩ (1 : Fin 2))) k * wArr m c (ix2 k q)
  refine Finset.sum_congr rfl fun k _ => ?_
  rw [rowsBlk_apply m c t p 0 hb, rowsBlk_apply m c t p 1 hb, wBlk_apply]

/-- An index of the output is in point t's block iff each coordinate is in the block's range. -/
theorem mem_blk (t : Fin cfg0.N) (i : S32768x2048.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v4).slice (win0_2.rect t)).set ↔ _
  rw [View.set_slice_whole, Rect.mem_set_unit]
  exact Iff.rfl

/-- The sixteen blocks tile the output: row r lies in the block of point r / 2048. -/
theorem cover (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  have hN : (i 0).val / 2048 < cfg0.N := by rw [show cfg0.N = 16 from N_0]; omega
  refine ⟨⟨(i 0).val / 2048, hN⟩, flush0_2 _, ?_⟩
  rw [mem_blk]
  obtain ⟨-, -, -, -, e0, e1⟩ := idx_facts ⟨(i 0).val / 2048, hN⟩
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_2.index ⟨(i 0).val / 2048, hN⟩ (1 : Fin 2) * 2048 ≤ (i 1).val
      ∧ (i 1).val < win0_2.index ⟨(i 0).val / 2048, hN⟩ (1 : Fin 2) * 2048 + 2048
    rw [e1]; omega

/-- THE OUTPUT after the run. -/
theorem final (c : Dev nD) : (dats m 0 c).arrAt 2 cfg0.N = outArr m c :=
  (dats m 0 c).arrAt_eq_of_cover 2 (outArr m c) (fun t _ => flushed_eq m c t) (cover)

/-! ## The result, after the reshape that follows the kernel -/

/-- The program's result: the output reshaped to [4, 8192, 2048]. -/
def result (c : Dev nD) : FVec Ideal S4x8192x2048 .f32 :=
  shapeCast S4x8192x2048 (outArr m c) Facts₀.shapeCasts_S32768x2048_S4x8192x2048

theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  exact congrArg (fun x => shapeCast S4x8192x2048 x Facts₀.shapeCasts_S32768x2048_S4x8192x2048)
    ((Pipeline.withArrays_arr spec0 launch0.win.arr_inj c _ _ 2).trans (final m c))

/-- ENTRY (b, l, d) OF THE RESULT. -/
theorem result_apply (c : Dev nD) (b : Fin 4) (l : Fin 8192) (d : Fin 2048) :
    result m c (ix3 b l d)
      = ∑ k : Fin 16, feat (argC m c (ix3 b l (0 : Fin 2))) (argC m c (ix3 b l (1 : Fin 2))) k
          * (argW m c (ix2 d k) * argS m c ix0) := by
  have h : 8192 * b.val + l.val < 32768 := by have := b.isLt; have := l.isLt; omega
  refine (shapeCast_apply _ _ (ix3 b l d) (ix2 ⟨8192 * b.val + l.val, h⟩ d) ?_).trans ?_
  · rw [Shape.rowMajor_val_two, Shape.rowMajor_val_three]
    show (8192 * b.val + l.val) * 2048 + d.val = (b.val * 8192 + l.val) * 2048 + d.val
    omega
  · show ∑ k : Fin 16, feat (rowsArr m c (ix2 ⟨8192 * b.val + l.val, h⟩ (0 : Fin 2)))
        (rowsArr m c (ix2 ⟨8192 * b.val + l.val, h⟩ (1 : Fin 2))) k * wArr m c (ix2 k d) = _
    rw [rowsArr_apply, rowsArr_apply]
    exact Finset.sum_congr rfl fun k _ => by rw [wArr_apply]

/-- For finite arguments the result is the embedding. -/
theorem result_eq_embed (c : Dev nD) (hC : ∀ i, ∃ r : ℝ, argC m c i = (r : EReal))
    (hW : ∀ i, ∃ r : ℝ, argW m c i = (r : EReal)) (hS : ∀ i, ∃ r : ℝ, argS m c i = (r : EReal)) :
    result m c = embed (argC m c) (argW m c) (argS m c) := by
  funext i
  obtain ⟨b, l, d, rfl⟩ : ∃ (b : Fin 4) (l : Fin 8192) (d : Fin 2048), i = ix3 b l d := ⟨i 0, i 1, i 2, eq_ix3 i⟩
  rw [result_apply]
  exact embed_of_scaled_weight _ _ _ hC hW hS b l d

/-! ## The run -/

/-- Every weakly fair execution of the idealized kernel program terminates with the result buffer at `result` and
    the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.LibDotRows3.lean ====
/-
  A stack of rows times a transposed weight, read at an entry (a general lemma: nothing here depends on a program).

  For the dimension numbers "contract the left operand's axis 2 with the right operand's axis 1, the left operand's
  axes 0 and 1 and the right operand's axis 0 kept, no batch axis" over operands [B, L, K] and [N, K], the host's
  dot_general at entry (b, l, n), at the ideal values, is the sum over k < K of lhs[b, l, k] · rhs[n, k]. This is
  what jnp.einsum 'blf,df->bld' lowers to. Any sizes.
-/
import Idealize.ShloMosaic.Lib.ValueIdx
import Idealize.ShloMosaic.PureOps.Ideal.Laws

noncomputable section

open scoped BigOperators

namespace Cert.Lib.DotRows3

open Idealize.ShloMosaic Idealize.ShloMosaic.ValueIdx

variable {B L K N : Nat}

/-- The dimension numbers, over any sizes, from their well-formedness (a printed record
    dot_S…_2_1_01_0_n_n is this one by rfl). -/
def dims (B L K N : Nat)
    (wf : DotDims.WF ⟨3, ![B, L, K]⟩ ⟨2, ![N, K]⟩ ⟨3, ![B, L, N]⟩ [2] [1] [0, 1] [0] [] []) :
    DotDims ⟨3, ![B, L, K]⟩ ⟨2, ![N, K]⟩ ⟨3, ![B, L, N]⟩ where
  lhsContracting := [2]
  rhsContracting := [1]
  lhsNonContracting := [0, 1]
  rhsNonContracting := [0]
  lhsBatch := []
  rhsBatch := []
  wf := wf

variable (wf : DotDims.WF ⟨3, ![B, L, K]⟩ ⟨2, ![N, K]⟩ ⟨3, ![B, L, N]⟩ [2] [1] [0, 1] [0] [] [])

/-- The left operand's index keeps the result's first coordinate … -/
theorem lhs0 (j : (⟨3, ![B, L, N]⟩ : Shape).Idx) (q : (dims B L K N wf).contr.Idx) :
    ((dims B L K N wf).lhsIdx j q 0).val = (j 0).val := by
  unfold DotDims.lhsIdx
  rw [dif_neg (show ¬(0 : Fin 3) ∈ (dims B L K N wf).lhsBatch from List.not_mem_nil),
    dif_pos (show (0 : Fin 3) ∈ (dims B L K N wf).lhsNonContracting from List.mem_cons_self)]
  rfl

/-- … and its second. -/
theorem lhs1 (j : (⟨3, ![B, L, N]⟩ : Shape).Idx) (q : (dims B L K N wf).contr.Idx) :
    ((dims B L K N wf).lhsIdx j q 1).val = (j 1).val := by
  unfold DotDims.lhsIdx
  rw [dif_neg (show ¬(1 : Fin 3) ∈ (dims B L K N wf).lhsBatch from List.not_mem_nil),
    dif_pos (show (1 : Fin 3) ∈ (dims B L K N wf).lhsNonContracting from
      List.mem_cons_of_mem _ List.mem_cons_self)]
  rfl

/-- The left operand's last coordinate is the contraction coordinate. -/
theorem lhs2 (j : (⟨3, ![B, L, N]⟩ : Shape).Idx) (q : (dims B L K N wf).contr.Idx) :
    ((dims B L K N wf).lhsIdx j q 2).val = (q ⟨0, Nat.one_pos⟩).val :=
  (dims B L K N wf).lhsIdx_val_of_single rfl j q

/-- The right operand's row is the result's last coordinate. -/
theorem rhs0 (j : (⟨3, ![B, L, N]⟩ : Shape).Idx) (q : (dims B L K N wf).contr.Idx) :
    ((dims B L K N wf).rhsIdx j q 0).val = (j 2).val := by
  unfold DotDims.rhsIdx
  rw [dif_neg (show ¬(0 : Fin 2) ∈ (dims B L K N wf).rhsBatch from List.not_mem_nil),
    dif_pos (show (0 : Fin 2) ∈ (dims B L K N wf).rhsNonContracting from List.mem_singleton.mpr rfl)]
  rfl

/-- The right operand's column is the contraction coordinate. -/
theorem rhs1 (j : (⟨3, ![B, L, N]⟩ : Shape).Idx) (q : (dims B L K N wf).contr.Idx) :
    ((dims B L K N wf).rhsIdx j q 1).val = (q ⟨0, Nat.one_pos⟩).val :=
  (dims B L K N wf).rhsIdx_val_of_single rfl j q

/-- The contraction at entry (b, l, n) is the sum over the K products lhs[b, l, k] · rhs[n, k]. -/
theorem contr_sum (lhs : (⟨3, ![B, L, K]⟩ : Shape).Idx → EReal) (rhs : (⟨2, ![N, K]⟩ : Shape).Idx → EReal)
    (b : Fin B) (l : Fin L) (n : Fin N) :
    ∑ q : (dims B L K N wf).contr.Idx,
        lhs ((dims B L K N wf).lhsIdx (ix3 b l n) q) * rhs ((dims B L K N wf).rhsIdx (ix3 b l n) q)
      = ∑ k : Fin K, lhs (ix3 b l k) * rhs (ix2 n k) := by
  rw [← Equiv.sum_comp (contrEquiv1 (dims B L K N wf) K rfl rfl).symm]
  refine Finset.sum_congr rfl fun k _ => ?_
  have hk := contrEquiv1_symm_val (dims B L K N wf) K rfl rfl k
  have el : (dims B L K N wf).lhsIdx (ix3 b l n) ((contrEquiv1 (dims B L K N wf) K rfl rfl).symm k)
      = ix3 b l k := funext fun x => Fin.ext (by
    match x with
    | ⟨0, _⟩ => exact lhs0 wf _ _
    | ⟨1, _⟩ => exact lhs1 wf _ _
    | ⟨2, _⟩ => exact (lhs2 wf _ _).trans hk)
  have er : (dims B L K N wf).rhsIdx (ix3 b l n) ((contrEquiv1 (dims B L K N wf) K rfl rfl).symm k)
      = ix2 n k := funext fun x => Fin.ext (by
    match x with
    | ⟨0, _⟩ => exact rhs0 wf _ _
    | ⟨1, _⟩ => exact (rhs1 wf _ _).trans hk)
  rw [el, er]

/-- The host's dot_general, at entry (b, l, n). -/
theorem dotGeneral_apply {φ₁ φ₂ : FTy} (prec : Option ContractPrecision) (sched : HostSchedule)
    (lhs : FVec Ideal ⟨3, ![B, L, K]⟩ φ₁) (rhs : FVec Ideal ⟨2, ![N, K]⟩ φ₂) (b : Fin B) (l : Fin L) (n : Fin N) :
    FloatOps.dotGeneral (dims B L K N wf) prec sched lhs rhs (ix3 b l n)
      = ∑ k : Fin K, (lhs (ix3 b l k) : EReal) * (rhs (ix2 n k) : EReal) := by
  rw [Ideal.dotGeneral_apply]
  exact contr_sum wf lhs rhs b l n

end Cert.Lib.DotRows3

end
-- ==== Proof.RefValue.lean ====
/-
  The reference's result at one entry.

  The reference slices the token constants [4, 8192, 2] into their real and imaginary parts [4, 8192], runs eight
  steps of the Julia recurrence on them, stacks the sixteen resulting arrays along a new last axis into the features
  [4, 8192, 16], contracts the features' last axis with the weight's last axis (einsum 'blf,df->bld') and multiplies
  every entry by the scalar. So entry (b, l, d) of its result is
  (the sum over the sixteen features k of feat (c[b, l, 0]) (c[b, l, 1]) k · W[d, k]) · scale.
-/
import proofs.«177505_j30365418782764_1_alg».proof.Proof.RefRun
import proofs.«177505_j30365418782764_1_alg».proof.Proof.Julia
import proofs.«177505_j30365418782764_1_alg».proof.Proof.LibDotRows3
import Idealize.ShloMosaic.Lib.Pipeline.Value
import Idealize.ShloMosaic.Lib.IdealHost

noncomputable section

open scoped BigOperators

namespace Cert.ReferenceIdeal.RefValue

open Idealize.ShloMosaic Idealize.ShloMosaic.ValueIdx Idealize.ShloMosaic.StableHlo Cert.ReferenceIdeal
  Cert.ReferenceIdeal.RunP Cert.Julia

variable (V0 : Valuation τ sig (Elt Ideal))

/-- The three float arguments, as arrays of extended reals. -/
abbrev argC : FVec Ideal S4x8192x2 .f32 := V0 (Proc.devRef .tc main_arg1)
abbrev argW : FVec Ideal S2048x16 .f32 := V0 (Proc.devRef .tc main_arg2)
abbrev argS : FVec Ideal S_ .f32 := V0 (Proc.devRef .tc main_arg3)

/-- The real and imaginary constants of every token. -/
abbrev cr : FVec Ideal S4x8192 .f32 := res_main_v1 V0
abbrev ci : FVec Ideal S4x8192 .f32 := res_main_v3 V0

/-- The real constant of token (b, l) is entry (b, l, 0) of the argument … -/
theorem cr_apply (b : Fin 4) (l : Fin 8192) : cr V0 (ix2 b l) = argC V0 (ix3 b l (0 : Fin 2)) := by
  refine (shapeCast_apply _ _ (ix2 b l) (ix3 b l (0 : Fin 1)) ?_).trans
    (extractStridedSlice_apply _ _ _ _ (ix3 b l (0 : Fin 2)) fun a => ?_)
  · rw [Shape.rowMajor_val_three, Shape.rowMajor_val_two]
    show (b.val * 8192 + l.val) * 1 + 0 = b.val * 8192 + l.val
    omega
  · match a with
    | ⟨0, _⟩ => show b.val = 0 + b.val; omega
    | ⟨1, _⟩ => show l.val = 0 + l.val; omega
    | ⟨2, _⟩ => rfl

/-- … and the imaginary constant is entry (b, l, 1). -/
theorem ci_apply (b : Fin 4) (l : Fin 8192) : ci V0 (ix2 b l) = argC V0 (ix3 b l (1 : Fin 2)) := by
  refine (shapeCast_apply _ _ (ix2 b l) (ix3 b l (0 : Fin 1)) ?_).trans
    (extractStridedSlice_apply _ _ _ _ (ix3 b l (1 : Fin 2)) fun a => ?_)
  · rw [Shape.rowMajor_val_three, Shape.rowMajor_val_two]
    show (b.val * 8192 + l.val) * 1 + 0 = b.val * 8192 + l.val
    omega
  · match a with
    | ⟨0, _⟩ => show b.val = 0 + b.val; omega
    | ⟨1, _⟩ => show l.val = 0 + l.val; omega
    | ⟨2, _⟩ => rfl

/-! ## The orbit, step by step: each named array is a step of the orbit of the token's constant -/

section Orbit
variable (i : S4x8192.Idx)

/-- The broadcast of 2.0 the imaginary part's update multiplies by. -/
abbrev twos : FVec Ideal S4x8192 .f32 :=
  broadcastInDim S4x8192 ![] Facts₀.bcast_S_S4x8192 (constant S_ .f32 0x40000000#32)

theorem re1 : res_main_v9 V0 i = (orbit (cr V0 i) (ci V0 i) 1).1 :=
  re_step (s := S4x8192) (res_main_v4 V0) (res_main_v5 V0) (cr V0) (ci V0) i 0 rfl rfl
theorem im1 : res_main_v13 V0 i = (orbit (cr V0 i) (ci V0 i) 1).2 :=
  im_step (s := S4x8192) twos (res_main_v4 V0) (res_main_v5 V0) (cr V0) (ci V0) i 0 rfl rfl rfl
theorem re2 : res_main_v17 V0 i = (orbit (cr V0 i) (ci V0 i) 2).1 :=
  re_step (s := S4x8192) (res_main_v9 V0) (res_main_v13 V0) (cr V0) (ci V0) i 1 (re1 V0 i) (im1 V0 i)
theorem im2 : res_main_v21 V0 i = (orbit (cr V0 i) (ci V0 i) 2).2 :=
  im_step (s := S4x8192) twos (res_main_v9 V0) (res_main_v13 V0) (cr V0) (ci V0) i 1 rfl (re1 V0 i) (im1 V0 i)
theorem re3 : res_main_v25 V0 i = (orbit (cr V0 i) (ci V0 i) 3).1 :=
  re_step (s := S4x8192) (res_main_v17 V0) (res_main_v21 V0) (cr V0) (ci V0) i 2 (re2 V0 i) (im2 V0 i)
theorem im3 : res_main_v29 V0 i = (orbit (cr V0 i) (ci V0 i) 3).2 :=
  im_step (s := S4x8192) twos (res_main_v17 V0) (res_main_v21 V0) (cr V0) (ci V0) i 2 rfl (re2 V0 i) (im2 V0 i)
theorem re4 : res_main_v33 V0 i = (orbit (cr V0 i) (ci V0 i) 4).1 :=
  re_step (s := S4x8192) (res_main_v25 V0) (res_main_v29 V0) (cr V0) (ci V0) i 3 (re3 V0 i) (im3 V0 i)
theorem im4 : res_main_v37 V0 i = (orbit (cr V0 i) (ci V0 i) 4).2 :=
  im_step (s := S4x8192) twos (res_main_v25 V0) (res_main_v29 V0) (cr V0) (ci V0) i 3 rfl (re3 V0 i) (im3 V0 i)
theorem re5 : res_main_v41 V0 i = (orbit (cr V0 i) (ci V0 i) 5).1 :=
  re_step (s := S4x8192) (res_main_v33 V0) (res_main_v37 V0) (cr V0) (ci V0) i 4 (re4 V0 i) (im4 V0 i)
theorem im5 : res_main_v45 V0 i = (orbit (cr V0 i) (ci V0 i) 5).2 :=
  im_step (s := S4x8192) twos (res_main_v33 V0) (res_main_v37 V0) (cr V0) (ci V0) i 4 rfl (re4 V0 i) (im4 V0 i)
theorem re6 : res_main_v49 V0 i = (orbit (cr V0 i) (ci V0 i) 6).1 :=
  re_step (s := S4x8192) (res_main_v41 V0) (res_main_v45 V0) (cr V0) (ci V0) i 5 (re5 V0 i) (im5 V0 i)
theorem im6 : res_main_v53 V0 i = (orbit (cr V0 i) (ci V0 i) 6).2 :=
  im_step (s := S4x8192) twos (res_main_v41 V0) (res_main_v45 V0) (cr V0) (ci V0) i 5 rfl (re5 V0 i) (im5 V0 i)
theorem re7 : res_main_v57 V0 i = (orbit (cr V0 i) (ci V0 i) 7).1 :=
  re_step (s := S4x8192) (res_main_v49 V0) (res_main_v53 V0) (cr V0) (ci V0) i 6 (re6 V0 i) (im6 V0 i)
theorem im7 : res_main_v61 V0 i = (orbit (cr V0 i) (ci V0 i) 7).2 :=
  im_step (s := S4x8192) twos (res_main_v49 V0) (res_main_v53 V0) (cr V0) (ci V0) i 6 rfl (re6 V0 i) (im6 V0 i)

/-- The last step's two arrays, which the run's term spells in place. -/
def lastRe : FVec Ideal S4x8192 .f32 :=
  addf (subf (mulf (res_main_v57 V0) (res_main_v57 V0)) (mulf (res_main_v61 V0) (res_main_v61 V0))) (res_main_v1 V0)
def lastIm : FVec Ideal S4x8192 .f32 :=
  addf (mulf (mulf twos (res_main_v57 V0)) (res_main_v61 V0)) (res_main_v3 V0)

theorem re8 : lastRe V0 i = (orbit (cr V0 i) (ci V0 i) 8).1 :=
  re_step (s := S4x8192) (res_main_v57 V0) (res_main_v61 V0) (cr V0) (ci V0) i 7 (re7 V0 i) (im7 V0 i)
theorem im8 : lastIm V0 i = (orbit (cr V0 i) (ci V0 i) 8).2 :=
  im_step (s := S4x8192) twos (res_main_v57 V0) (res_main_v61 V0) (cr V0) (ci V0) i 7 rfl (re7 V0 i) (im7 V0 i)

/-- The sixteen arrays the reference stacks, in order. -/
def planes : Fin 16 → FVec Ideal S4x8192 .f32
  | ⟨0, _⟩ => res_main_v9 V0
  | ⟨1, _⟩ => res_main_v13 V0
  | ⟨2, _⟩ => res_main_v17 V0
  | ⟨3, _⟩ => res_main_v21 V0
  | ⟨4, _⟩ => res_main_v25 V0
  | ⟨5, _⟩ => res_main_v29 V0
  | ⟨6, _⟩ => res_main_v33 V0
  | ⟨7, _⟩ => res_main_v37 V0
  | ⟨8, _⟩ => res_main_v41 V0
  | ⟨9, _⟩ => res_main_v45 V0
  | ⟨10, _⟩ => res_main_v49 V0
  | ⟨11, _⟩ => res_main_v53 V0
  | ⟨12, _⟩ => res_main_v57 V0
  | ⟨13, _⟩ => res_main_v61 V0
  | ⟨14, _⟩ => lastRe V0
  | ⟨15, _⟩ => lastIm V0
  | ⟨_ + 16, h⟩ => absurd h (Nat.not_lt.2 (Nat.le_add_left _ _))

/-- Array k, read at a token, is feature k of the token's constant. -/
theorem planes_apply (k : Fin 16) : planes V0 k i = feat (cr V0 i) (ci V0 i) k := by
  match k with
  | ⟨0, _⟩ => exact (re1 V0 i).trans (feat_even _ _ 0 (by omega)).symm
  | ⟨1, _⟩ => exact (im1 V0 i).trans (feat_odd _ _ 0 (by omega)).symm
  | ⟨2, _⟩ => exact (re2 V0 i).trans (feat_even _ _ 1 (by omega)).symm
  | ⟨3, _⟩ => exact (im2 V0 i).trans (feat_odd _ _ 1 (by omega)).symm
  | ⟨4, _⟩ => exact (re3 V0 i).trans (feat_even _ _ 2 (by omega)).symm
  | ⟨5, _⟩ => exact (im3 V0 i).trans (feat_odd _ _ 2 (by omega)).symm
  | ⟨6, _⟩ => exact (re4 V0 i).trans (feat_even _ _ 3 (by omega)).symm
  | ⟨7, _⟩ => exact (im4 V0 i).trans (feat_odd _ _ 3 (by omega)).symm
  | ⟨8, _⟩ => exact (re5 V0 i).trans (feat_even _ _ 4 (by omega)).symm
  | ⟨9, _⟩ => exact (im5 V0 i).trans (feat_odd _ _ 4 (by omega)).symm
  | ⟨10, _⟩ => exact (re6 V0 i).trans (feat_even _ _ 5 (by omega)).symm
  | ⟨11, _⟩ => exact (im6 V0 i).trans (feat_odd _ _ 5 (by omega)).symm
  | ⟨12, _⟩ => exact (re7 V0 i).trans (feat_even _ _ 6 (by omega)).symm
  | ⟨13, _⟩ => exact (im7 V0 i).trans (feat_odd _ _ 6 (by omega)).symm
  | ⟨14, _⟩ => exact (re8 V0 i).trans (feat_even _ _ 7 (by omega)).symm
  | ⟨15, _⟩ => exact (im8 V0 i).trans (feat_odd _ _ 7 (by omega)).symm
  | ⟨_ + 16, h⟩ => exact absurd h (Nat.not_lt.2 (Nat.le_add_left _ _))

end Orbit

/-! ## The stack, the contraction and the scale -/

/-- One stacked piece: an array [4, 8192] given a trailing unit axis. -/
abbrev piece (x : FVec Ideal S4x8192 .f32) : S4x8192x1.Idx → EReal :=
  broadcastInDim S4x8192x1 ![0, 1] Facts₀.bcast_S4x8192_S4x8192x1_0_1 x

/-- A piece read at (b, l, 0) is its array at (b, l). -/
theorem piece_apply (x : FVec Ideal S4x8192 .f32) (b : Fin 4) (l : Fin 8192) :
    piece x (ix3 b l (0 : Fin 1)) = x (ix2 b l) :=
  broadcastInDim_apply _ _ x (ix3 b l (0 : Fin 1)) (ix2 b l) fun a => by
    match a with
    | ⟨0, _⟩ => rfl
    | ⟨1, _⟩ => rfl

/-- The sixteen pieces as the list a concatenation takes … -/
abbrev pieces : List ((s : Shape) × (s.Idx → EReal)) :=
  List.ofFn fun n : Fin 16 => (⟨S4x8192x1, piece (planes V0 n)⟩ : (s : Shape) × (s.Idx → EReal))

/-- … whose shapes are the sixteen [4, 8192, 1] the reference's concatenation states. -/
theorem pieces_cat : Shape.Concatenates ((pieces V0).map (·.1)) S4x8192x16 2 :=
  Facts₀.concatenates_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x16_d2

/-- The features [4, 8192, 16]: the sixteen pieces laid along the last axis. -/
def features : FVec Ideal S4x8192x16 .f32 := concatenate S4x8192x16 2 (pieces V0) (pieces_cat V0)

/-- Feature k of token (b, l). -/
theorem features_apply (b : Fin 4) (l : Fin 8192) (k : Fin 16) :
    features V0 (ix3 b l k) = feat (argC V0 (ix3 b l (0 : Fin 2))) (argC V0 (ix3 b l (1 : Fin 2))) k := by
  have hc : features V0 (ix3 b l k) = piece (planes V0 k) (ix3 b l (0 : Fin 1)) :=
    concatenate_ofFn_unit_apply (t := S4x8192x16) (s₁ := S4x8192x1) (2 : Fin 3) (fun n => piece (planes V0 n))
      (pieces_cat V0) rfl rfl (ix3 b l k) k rfl (ix3 b l (0 : Fin 1)) fun a ha => by
        match a with
        | ⟨0, _⟩ => rfl
        | ⟨1, _⟩ => rfl
        | ⟨2, _⟩ => exact absurd rfl ha
  rw [hc, piece_apply, planes_apply, cr_apply, ci_apply]

/-- The reference's result, as the generated run's term with its pieces named. -/
def result : FVec Ideal S4x8192x2048 .f32 :=
  mulf (Host.dotGeneral dot_S4x8192x16_S2048x16_S4x8192x2048_2_1_01_0_n_n none (features V0) (argW V0))
    (broadcastInDim S4x8192x2048 ![] Facts₀.bcast_S_S4x8192x2048 (argS V0))

/-- ENTRY (b, l, d) OF THE REFERENCE'S RESULT. -/
theorem result_apply (b : Fin 4) (l : Fin 8192) (d : Fin 2048) :
    result V0 (ix3 b l d)
      = (∑ k : Fin 16, feat (argC V0 (ix3 b l (0 : Fin 2))) (argC V0 (ix3 b l (1 : Fin 2))) k * argW V0 (ix2 d k))
          * argS V0 ix0 := by
  show FloatOps.dotGeneral (Cert.Lib.DotRows3.dims 4 8192 16 2048 Facts₀.dot_S4x8192x16_S2048x16_S4x8192x2048_2_1_01_0_n_n_wf)
      none .single (features V0) (argW V0) (ix3 b l d)
    * broadcastInDim S4x8192x2048 ![] Facts₀.bcast_S_S4x8192x2048 (argS V0) (ix3 b l d) = _
  rw [Cert.Lib.DotRows3.dotGeneral_apply, broadcastInDim_scalar_apply]
  exact congrArg (· * argS V0 ix0) (Finset.sum_congr rfl fun k _ => by rw [features_apply])

/-- The reference's result is the embedding of its arguments (no finiteness is needed: the reference's text is the
    embedding's, operation for operation). -/
theorem result_eq_embed : result V0 = embed (argC V0) (argW V0) (argS V0) := by
  funext i
  obtain ⟨b, l, d, rfl⟩ : ∃ (b : Fin 4) (l : Fin 8192) (d : Fin 2048), i = ix3 b l d := ⟨i 0, i 1, i 2, eq_ix3 i⟩
  exact result_apply V0 b l d

/-- The generated run, with the result buffer at `result` of the launch contents. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.RunP.run (F := Ideal) m ρ

end Cert.ReferenceIdeal.RefValue

end
-- ==== Proof.Finite.lean ====
/-
  The precondition read back: where "every float input is finite" holds, every entry of the three float arguments
  is a real number.

  The printed predicate is the conjunction of three jnp.all's, one per float argument, of |x| < +∞ taken entry by
  entry. A conjunction of bits that is 1 has every conjunct 1; an and-reduction over all axes that is 1 had a 1 at
  every entry; and an extended real whose absolute value max x (−x) is below +∞ is neither infinity, hence a real.
-/
import proofs.«177505_j30365418782764_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- An extended real whose absolute value compares below the f32 word of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Cert.Pre_finite_inputs.Facts]

/-- Under the precondition each float argument is an array of reals. -/
theorem reals_of_pre (a0 : IVec S4x8192 32) (a1 : FVec Ideal S4x8192x2 .f32) (a2 : FVec Ideal S2048x16 .f32)
    (a3 : FVec Ideal S_ .f32) (h : fn (F := Ideal) a0 a1 a2 a3 = fun _ => 1#1) :
    (∀ i, ∃ r : ℝ, a1 i = (r : EReal)) ∧ (∀ i, ∃ r : ℝ, a2 i = (r : EReal)) ∧ (∀ i, ∃ r : ℝ, a3 i = (r : EReal)) := by
  have h0 := congrFun h ix0
  dsimp only [fn] at h0
  have h0' : IntOp.andi (IntOp.andi _ _) _ = 1#1 := h0
  obtain ⟨h12, h3⟩ := IntOp.andi_eq_one.1 h0'
  obtain ⟨h1, h2⟩ := IntOp.andi_eq_one.1 h12
  exact ⟨fun i => real_of_abs_lt_inf _ (Host.reduce_andi_all _ _ _ _ ix0 h1 i),
    fun i => real_of_abs_lt_inf _ (Host.reduce_andi_all _ _ _ _ ix0 h2 i),
    fun i => real_of_abs_lt_inf _ (Host.reduce_andi_all _ _ _ _ ix0 h3 i)⟩

end Cert.Finite

end
-- ==== Proof.lean ====
/- The certificate of the fractal embedding kernel against its jnp reference.

   Both programs map token constants C : [4, 8192, 2] (a complex number c = C[b, l, 0] + i·C[b, l, 1] per token), a weight
   W : [2048, 16] and a scalar S to an embedding [4, 8192, 2048]: eight steps of the Julia recurrence z ↦ z² + c from z = 0
   give sixteen features per token (the real and imaginary parts of the steps, interleaved), which are projected on the
   rows of W and scaled by S. The kernel folds S into the transposed weight before its matrix product,
   Σ k, feat k · (W[d, k] · S); the reference scales after the contraction, (Σ k, feat k · W[d, k]) · S. On the extended
   reals the two agree because, under the precondition, every argument entry is a real number, every feature of a real
   constant is a real (the recurrence is a polynomial), and a finite factor leaves a finite sum of finite terms.

   The three frames: the two kernel programs' are the generated frame certificates; the reference's is its run
   with the result dropped. The idealization rewrote no operation, so its ledger's claim is trivial. -/
import proofs.«177505_j30365418782764_1_alg».proof.Defs
import proofs.«177505_j30365418782764_1_alg».proof.Proof.Gen.Kernel
import proofs.«177505_j30365418782764_1_alg».proof.Proof.Gen.Kernel.Skeleton
import proofs.«177505_j30365418782764_1_alg».proof.Proof.Gen.Kernel.Launch
import proofs.«177505_j30365418782764_1_alg».proof.Proof.Gen.Kernel.Points
import proofs.«177505_j30365418782764_1_alg».proof.Proof.Gen.Kernel.Frame
import proofs.«177505_j30365418782764_1_alg».proof.Proof.Gen.KernelIdeal
import proofs.«177505_j30365418782764_1_alg».proof.Proof.Gen.KernelIdeal.Skeleton
import proofs.«177505_j30365418782764_1_alg».proof.Proof.Gen.KernelIdeal.Launch
import proofs.«177505_j30365418782764_1_alg».proof.Proof.Gen.KernelIdeal.Points
import proofs.«177505_j30365418782764_1_alg».proof.Proof.Gen.KernelIdeal.Frame
import proofs.«177505_j30365418782764_1_alg».proof.Proof.Gen.ReferenceIdeal
import proofs.«177505_j30365418782764_1_alg».proof.Proof.RefRun
import proofs.«177505_j30365418782764_1_alg».proof.Proof.Gen.Pre_finite_inputs
import proofs.«177505_j30365418782764_1_alg».proof.Proof.KernelValue
import proofs.«177505_j30365418782764_1_alg».proof.Proof.RefValue
import proofs.«177505_j30365418782764_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- At the ideal values, from memories that agree on the arguments, both programs end with the embedding of the
    arguments in their result buffers: the kernel by its blocks and the factor law (which uses the finiteness the
    precondition gives), the reference operation for operation. -/
theorem algebraic : Cert.algebraic_KernelIdeal_ReferenceIdeal := by
  intro m ρ m' ρ' hpre hagree
  have hfin := fun c => Cert.Finite.reals_of_pre _ _ _ _ (hpre c)
  refine ⟨fun c => Cert.Julia.embed (Cert.KernelIdeal.KValue.argC m c) (Cert.KernelIdeal.KValue.argW m c)
    (Cert.KernelIdeal.KValue.argS m c), ?_, ?_⟩
  · exact (θ_run Cert.KernelIdeal.defs _ _).mono (fun _ h c =>
      ⟨(h c).1.trans (Cert.KernelIdeal.KValue.result_eq_embed m c (hfin c).1 (hfin c).2.1 (hfin c).2.2), (h c).2⟩)
      (Cert.KernelIdeal.KValue.run m ρ)
  · refine (θ_run Cert.ReferenceIdeal.defs _ _).mono (fun _ h c => ⟨(h c).1.trans ?_, (h c).2⟩)
      (Cert.ReferenceIdeal.RefValue.run m' ρ')
    have e1 : Cert.ReferenceIdeal.RefValue.argC (StableHlo.launchContents m' c) = Cert.KernelIdeal.KValue.argC m c :=
      (hagree c).2.1
    have e2 : Cert.ReferenceIdeal.RefValue.argW (StableHlo.launchContents m' c) = Cert.KernelIdeal.KValue.argW m c :=
      (hagree c).2.2.1
    have e3 : Cert.ReferenceIdeal.RefValue.argS (StableHlo.launchContents m' c) = Cert.KernelIdeal.KValue.argS m c :=
      (hagree c).2.2.2
    rw [Cert.ReferenceIdeal.RefValue.result_eq_embed, e1, e2, e3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
